-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_arg5 : FVec F S16384x4096 .f32) (main_arg6 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  main_v33

def fn {F : FTy → Type} [FloatOps F] (main_arg0 : FVec F S8192x4096 .f32) (main_arg1 : FVec F S16384x4096 .f32) (main_arg2 : FVec F S16384x4096 .f32) (main_arg3 : FVec F S16384 .f32) (main_arg4 : FVec F S16384 .f32) (main_arg5 : FVec F S16384x4096 .f32) (main_arg6 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_arg5 main_arg6 main_v13 main_v16
-- ==== Kernel.lean ====
abbrev S8192x4096 : Shape := ⟨2, ![8192, 4096]⟩
abbrev S16384x4096 : Shape := ⟨2, ![16384, 4096]⟩
abbrev S16384 : Shape := ⟨1, ![16384]⟩
abbrev S1x16384 : Shape := ⟨2, ![1, 16384]⟩
abbrev S8192x16384 : Shape := ⟨2, ![8192, 16384]⟩
abbrev S4096x128 : Shape := ⟨2, ![4096, 128]⟩
abbrev S512x128 : Shape := ⟨2, ![512, 128]⟩
abbrev S1x512 : Shape := ⟨2, ![1, 512]⟩
abbrev S4096x512 : Shape := ⟨2, ![4096, 512]⟩

abbrev nBuf : Space → Nat
  | .hbm => 11
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S16384, .f32⟩
  | .hbm, ⟨4, _⟩ => ⟨S16384, .f32⟩
  | .hbm, ⟨5, _⟩ => ⟨S16384x4096, .f32⟩
  | .hbm, ⟨6, _⟩ => ⟨S16384, .f32⟩
  | .hbm, ⟨7, _⟩ => ⟨S1x16384, .f32⟩
  | .hbm, ⟨8, _⟩ => ⟨S1x16384, .f32⟩
  | .hbm, ⟨9, _⟩ => ⟨S1x16384, .f32⟩
  | .hbm, ⟨10, _⟩ => ⟨S8192x16384, .f32⟩
  | .local _ .vmem, ⟨0, _⟩ => ⟨S4096x128, .f32⟩
  | .local _ .vmem, ⟨1, _⟩ => ⟨S4096x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S4096x512, .f32⟩
  | .local _ .vmem, ⟨15, _⟩ => ⟨S4096x512, .f32⟩
  | .local _ .vmem, ⟨16, _⟩ => ⟨S4096x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 32, 32], ![false, false, false]⟩

def k0_cond2 (i : grid0.Coords) : BitVec 1 :=
  let arg2 : BitVec 32 := BitVec.ofNat 32 (i 2).val
  let c31_i32 : BitVec 32 := 31#32
  let v18 : BitVec 1 := Scalar.cmpi .eq arg2 c31_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S16384_S1x16384 : S16384.ShapeCasts S1x16384
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  dot_S4096x128_S512x128_S4096x512_1_1_0_0_n_n_wf : DotDims.WF S4096x128 S512x128 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x4096.size a
  hwx0_0 : ∀ i : grid0.Coords, EltTy.bits .f32 = 32 ∨ (Rect.block (s := S8192x4096) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x4096.size a
  hwx0_1 : ∀ i : grid0.Coords, EltTy.bits .f32 = 32 ∨ (Rect.block (s := S16384x4096) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x4096.size a
  hwx0_2 : ∀ i : grid0.Coords, EltTy.bits .f32 = 32 ∨ (Rect.block (s := S16384x4096) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S16384x4096.size a
  hwx0_3 : ∀ i : grid0.Coords, EltTy.bits .f32 = 32 ∨ (Rect.block (s := S16384x4096) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x16384.size a
  hwx0_5 : ∀ i : grid0.Coords, EltTy.bits .f32 = 32 ∨ (Rect.block (s := S1x16384) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x16384.size a
  hwx0_6 : ∀ i : grid0.Coords, EltTy.bits .f32 = 32 ∨ (Rect.block (s := S1x16384) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x512.size a ≤ S8192x16384.size a
  hwx0_7 : ∀ i : grid0.Coords, EltTy.bits .f32 = 32 ∨ (Rect.block (s := S8192x16384) S4096x512.size (cc0_transform_7 i) (hinb0_7 i)).WholeWords (EltTy.packing .f32)

variable [Facts₀]

def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S8192x16384 : Shape := ⟨2, ![8192, 16384]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S16384, .f32⟩
  | .hbm, ⟨4, _⟩ => ⟨S16384, .f32⟩
  | .hbm, ⟨5, _⟩ => ⟨S16384x4096, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Spec.lean ====
/-
  The value both programs compute, as one function of the seven argument arrays.

  A Bayesian linear layer with a reparameterized weight sample: for x of shape [8192, 4096], per-entry weight mean μ,
  log standard deviation λ and noise ε of shape [16384, 4096], and per-output bias mean, log standard deviation and
  noise of length 16384,

      W[o, i] = μ[o, i] + exp(λ[o, i]) · ε[o, i],        b[o] = μ_b[o] + exp(λ_b[o]) · ε_b[o],
      out[n, o] = (Σ_{i < 4096} x[n, i] · W[o, i]) + b[o].

  Over the extended reals addition is associative and commutative (a commutative monoid), so the sum over the 4096
  contracted coordinates may be taken 128 at a time, 32 blocks in order: that regrouping is the only law the
  equivalence needs, and it asks nothing of the entries (no distributivity, no cancelling, so no finiteness).
-/
import Idealize.ShloMosaic.PureOps.Ideal
import Idealize.ShloMosaic.PureOps.Ideal.Laws
import Idealize.ShloMosaic.Lib.ValueIdx

noncomputable section

namespace BayesLinear

open Idealize.ShloMosaic Idealize.ShloMosaic.ValueIdx
open scoped BigOperators

/-- The input's shape, [8192, 4096]. -/
abbrev SX : Shape := ⟨2, ![8192, 4096]⟩
/-- The weight arrays' shape, [16384, 4096]. -/
abbrev SW : Shape := ⟨2, ![16384, 4096]⟩
/-- The bias arrays' shape, [16384]. -/
abbrev SB : Shape := ⟨1, ![16384]⟩
/-- The result's shape, [8192, 16384]. -/
abbrev SO : Shape := ⟨2, ![8192, 16384]⟩

/-- The sampled weight, entry by entry: mean plus exp(log sigma) times noise. -/
def weight (wmu wls epsw : FVec Ideal SW .f32) : FVec Ideal SW .f32 :=
  fun i => wmu i + Ideal.exp (wls i) * epsw i

/-- The sampled bias, entry by entry: mean plus exp(log sigma) times noise. -/
def biasv (bmu bls epsb : FVec Ideal SB .f32) : FVec Ideal SB .f32 :=
  fun o => bmu o + Ideal.exp (bls o) * epsb o

/-- The layer's output: row n of x against row o of the sampled weight, plus the sampled bias at o. -/
def G (x : FVec Ideal SX .f32) (wmu wls : FVec Ideal SW .f32) (bmu bls : FVec Ideal SB .f32)
    (epsw : FVec Ideal SW .f32) (epsb : FVec Ideal SB .f32) : FVec Ideal SO .f32 :=
  fun j => (∑ i : Fin 4096, x (ix2 (j 0) i) * weight wmu wls epsw (ix2 (j 1) i)) + biasv bmu bls epsb (ix1 (j 1))

/-- A sum over 4096 coordinates is the sum, over 32 consecutive blocks, of each block's 128 terms. -/
theorem sum_by_blocks {M : Type*} [AddCommMonoid M] (g : Fin 4096 → M) :
    ∑ i : Fin 4096, g i
      = ∑ s : Fin 32, ∑ l : Fin 128, g ⟨128 * s.val + l.val, by have := s.isLt; have := l.isLt; omega⟩ := by
  have e : ∑ i : Fin 4096, g i = ∑ p : Fin 32 × Fin 128, g (finProdFinEquiv p) :=
    (Equiv.sum_comp (finProdFinEquiv (m := 32) (n := 128)) g).symm
  rw [e, Fintype.sum_prod_type]
  refine Finset.sum_congr rfl fun s _ => Finset.sum_congr rfl fun l _ => congrArg g (Fin.ext ?_)
  show l.val + 128 * s.val = 128 * s.val + l.val
  omega

/-- The same with the blocks counted by a natural below 32, the form a fold over consecutive grid points produces:
    the block at position s contributes the terms of coordinates 128·s … 128·s + 127. -/
theorem sum_by_blocks_range {M : Type*} [AddCommMonoid M] (g : Fin 4096 → M) :
    ∑ i : Fin 4096, g i
      = ∑ s ∈ Finset.range 32, ∑ l : Fin 128, g ⟨(128 * (s % 32) + l.val) % 4096, Nat.mod_lt _ (by decide)⟩ := by
  rw [sum_by_blocks, Finset.sum_range]
  refine Finset.sum_congr rfl fun s _ => Finset.sum_congr rfl fun l _ => congrArg g (Fin.ext ?_)
  have hs := s.isLt
  have hl := l.isLt
  show 128 * s.val + l.val = (128 * (s.val % 32) + l.val) % 4096
  omega

/-! ## Where a grid point's blocks sit in the whole arrays

The 2048 grid points are numbered row-major over 2 × 32 × 32: point n has row block n / 1024 (of x and the output),
weight row block n / 32 % 32 (the output's column block) and contraction block n % 32. The functions below place a
block-local coordinate in the whole array; they are total in n (reduced modulo the extent), and for n < 2048 the
reduction changes nothing. -/

/-- The shape of one output block and of the accumulator, [4096, 512]. -/
abbrev SAcc : Shape := ⟨2, ![4096, 512]⟩

/-- Row r of point n's x block, as a row of x. -/
def rowX (n : ℕ) (r : Fin 4096) : Fin 8192 := ⟨(4096 * (n / 1024) + r.val) % 8192, Nat.mod_lt _ (by decide)⟩
/-- Column l of point n's x and weight blocks, as a contracted coordinate. -/
def colK (n : ℕ) (l : Fin 128) : Fin 4096 := ⟨(128 * (n % 32) + l.val) % 4096, Nat.mod_lt _ (by decide)⟩
/-- Row q of point n's weight blocks, as a row of the weight arrays (an output column). -/
def rowW (n : ℕ) (q : Fin 512) : Fin 16384 := ⟨(512 * (n / 32 % 32) + q.val) % 16384, Nat.mod_lt _ (by decide)⟩

/-- What point n adds to the accumulator at block-local (r, q): the 128 products of its contraction block, taken from
    the whole x and the whole sampled weight w. -/
def addend (x : FVec Ideal SX .f32) (w : FVec Ideal SW .f32) (n : ℕ) (i : SAcc.Idx) : EReal :=
  ∑ l : Fin 128, x (ix2 (rowX n (i 0)) (colK n l)) * w (ix2 (rowW n (i 1)) (colK n l))

/-- Over a run of 32 consecutive points starting at a multiple of 32, the row and column blocks stay put while the
    contraction block walks 0 … 31, so the 32 addends together are the whole row of x against the whole row of w. -/
theorem sum_addends (x : FVec Ideal SX .f32) (w : FVec Ideal SW .f32) (b : ℕ) (hb : b % 32 = 0) (i : SAcc.Idx) :
    ∑ s ∈ Finset.range 32, addend x w (b + s) i
      = ∑ k : Fin 4096, x (ix2 (rowX b (i 0)) k) * w (ix2 (rowW b (i 1)) k) := by
  rw [sum_by_blocks_range (fun k => x (ix2 (rowX b (i 0)) k) * w (ix2 (rowW b (i 1)) k))]
  refine Finset.sum_congr rfl fun s hs => ?_
  have hs' : s < 32 := Finset.mem_range.mp hs
  unfold addend
  refine Finset.sum_congr rfl fun l _ => ?_
  have e1 : rowX (b + s) (i 0) = rowX b (i 0) := Fin.ext (by
    show (4096 * ((b + s) / 1024) + (i 0).val) % 8192 = (4096 * (b / 1024) + (i 0).val) % 8192
    have : (b + s) / 1024 = b / 1024 := by omega
    rw [this])
  have e2 : rowW (b + s) (i 1) = rowW b (i 1) := Fin.ext (by
    show (512 * ((b + s) / 32 % 32) + (i 1).val) % 16384 = (512 * (b / 32 % 32) + (i 1).val) % 16384
    have : (b + s) / 32 = b / 32 := by omega
    rw [this])
  have e3 : colK (b + s) l = ⟨(128 * (s % 32) + l.val) % 4096, Nat.mod_lt _ (by decide)⟩ := Fin.ext (by
    show (128 * ((b + s) % 32) + l.val) % 4096 = (128 * (s % 32) + l.val) % 4096
    have : (b + s) % 32 = s % 32 := by omega
    rw [this])
  rw [e1, e2, e3]

end BayesLinear

end
-- ==== Proof.RefValue.lean ====
/-
  The reference, read at the ideal values, computes the layer's output function.

  Its ten host operations are: the exponential of the weight's log sigma, its product with the weight noise, the sum
  with the weight mean (the sampled weight W); the same three for the bias; the contraction of x's second axis against
  W's second axis; two broadcasts of the bias along the rows; and the final sum. Read at an index (n, o) this is
  Σ_i x[n, i] · W[o, i] + b[o], term for term the specification: nothing is regrouped.
-/
import proofs.«181426_j63247688401633_1_alg».proof.Proof.Gen.ReferenceIdeal.Read
import proofs.«181426_j63247688401633_1_alg».proof.Proof.Spec

noncomputable section

namespace BayesLinear.Ref

open Idealize.ShloMosaic Idealize.ShloMosaic.ValueIdx Cert.ReferenceIdeal Cert.ReferenceIdeal.Read
open scoped BigOperators

/-- The reference's last stage, at the ideal values, is the specification's function of the seven arguments. -/
theorem val_eq_G (x0 : FVec Ideal SX .f32) (x1 x2 : FVec Ideal SW .f32) (x3 x4 : FVec Ideal SB .f32)
    (x5 : FVec Ideal SW .f32) (x6 : FVec Ideal SB .f32) :
    val_main_v9 (F := Ideal) x0 x1 x2 x3 x4 x5 x6 = G x0 x1 x2 x3 x4 x5 x6 := by
  funext i
  have el : ∀ k : Fin 4096, lidx_main_v6 i k = ix2 (i 0) k := fun k =>
    funext fun a => Fin.ext (by match a with | ⟨0, _⟩ => rfl | ⟨1, _⟩ => rfl)
  have er : ∀ k : Fin 4096, ridx_main_v6 i k = ix2 (i 1) k := fun k =>
    funext fun a => Fin.ext (by match a with | ⟨0, _⟩ => rfl | ⟨1, _⟩ => rfl)
  have eb : idx_main_v7 (idx_main_v8 i) = ix1 (i 1) :=
    funext fun a => Fin.ext (by match a with | ⟨0, _⟩ => rfl)
  rw [val_main_v9_apply, val_main_v6_apply, val_main_v8_apply, val_main_v7_apply, val_main_v5_apply,
    val_main_v4_apply, val_main_v3_apply]
  simp only [el, er, eb, val_main_v2_apply, val_main_v1_apply, val_main_v0_apply, G, weight, biasv,
    Ideal.addf_def, Ideal.mulf_def, Ideal.hostUnary_exp_def]
  rfl

end BayesLinear.Ref

end
-- ==== Proof.KernelPieces.lean ====
/-
  What one run of the kernel body leaves behind, case by case.

  The grid is 2 × 32 × 32; the last coordinate k walks the 32 column blocks of the contraction. The body keeps a
  [4096, 512] accumulator in scratch memory across the 32 points of a run:
    k = 0        the accumulator is zeroed, then gets zero + (this point's partial product);
    0 < k < 31   the accumulator gets (what the point before left) + (this point's partial product);
    k = 31       the same update, and then the output block is stored: the updated accumulator plus the bias row.
  Each store covers its whole buffer, so what a buffer holds afterwards is the value of the last store into it, as a
  pure function of the blocks the body loaded.
-/
import proofs.«181426_j63247688401633_1_alg».proof.Proof.Gen.KernelIdeal.Frame
import Idealize.ShloMosaic.Lib.Pipeline.Value
import Idealize.ShloMosaic.Lib.Tactic

noncomputable section

namespace BayesLinear.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At the first point of a run of 32 the scratch is stored whole twice: the zero block, then the zero block read back
    plus this point's partial product. What it is left holding is the second store's value. -/
theorem scratch_A (c : Dev nD) (i : grid0.Coords) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4096x512 .f32) (harg10 : arg10.IsWhole) (arg11 : Memref sig .tc .vmem S4096x512 .f32) (harg11 : arg11.IsWhole) (hc0 : cond0_0 i) (hc1 : ¬cond0_1 i)
    (x0 : Vec F S4096x128 .f32) (x1 : Vec F S512x128 .f32) (x2 : Vec F S512x128 .f32) (x3 : Vec F S512x128 .f32) (x4 : Vec F S1x512 .f32) (x5 : Vec F S1x512 .f32) (x6 : Vec F S1x512 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S4096x512) hz, View.readCov_unit_zero (S := S4096x512) _ hz]
  simp only [View.readAt_eq_ld, harg3.read_unread, harg4.read_unread, harg5.read_unread, harg6.read_unread, harg7.read_unread, harg8.read_unread, harg9.read_unread, harg10.read_unread, harg11.read_unread, View.ld_unit_zero (S := S4096x128) hz, View.ld_unit_zero (S := S512x128) hz, View.ld_unit_zero (S := S1x512) hz, View.ld_unit_zero (S := S4096x512) hz]

/-- At a middle point the scratch is stored whole once: what the point before left plus this point's partial product. -/
theorem scratch_B (c : Dev nD) (i : grid0.Coords) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4096x512 .f32) (harg10 : arg10.IsWhole) (arg11 : Memref sig .tc .vmem S4096x512 .f32) (harg11 : arg11.IsWhole) (hc0 : ¬cond0_0 i) (hc1 : ¬cond0_1 i)
    (x0 : Vec F S4096x128 .f32) (x1 : Vec F S512x128 .f32) (x2 : Vec F S512x128 .f32) (x3 : Vec F S512x128 .f32) (x4 : Vec F S1x512 .f32) (x5 : Vec F S1x512 .f32) (x6 : Vec F S1x512 .f32) (xs0 : Vec F S4096x512 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S4096x128) hz, View.ld_unit_zero (S := S512x128) hz, View.ld_unit_zero (S := S1x512) hz, View.ld_unit_zero (S := S4096x512) hz]

/-- At the last point of a run the scratch gets the same update as at a middle point … -/
theorem scratch_C (c : Dev nD) (i : grid0.Coords) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4096x512 .f32) (harg10 : arg10.IsWhole) (arg11 : Memref sig .tc .vmem S4096x512 .f32) (harg11 : arg11.IsWhole) (hc0 : ¬cond0_0 i) (hc1 : cond0_1 i)
    (x0 : Vec F S4096x128 .f32) (x1 : Vec F S512x128 .f32) (x2 : Vec F S512x128 .f32) (x3 : Vec F S512x128 .f32) (x4 : Vec F S1x512 .f32) (x5 : Vec F S1x512 .f32) (x6 : Vec F S1x512 .f32) (xs0 : Vec F S4096x512 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S4096x128) hz, View.ld_unit_zero (S := S512x128) hz, View.ld_unit_zero (S := S1x512) hz, View.ld_unit_zero (S := S4096x512) hz]

/-- … and the output block is stored whole once: the updated scratch read back, plus the bias row broadcast down the
    rows. -/
theorem out_C (c : Dev nD) (i : grid0.Coords) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4096x512 .f32) (harg10 : arg10.IsWhole) (arg11 : Memref sig .tc .vmem S4096x512 .f32) (harg11 : arg11.IsWhole) (hc0 : ¬cond0_0 i) (hc1 : cond0_1 i)
    (x0 : Vec F S4096x128 .f32) (x1 : Vec F S512x128 .f32) (x2 : Vec F S512x128 .f32) (x3 : Vec F S512x128 .f32) (x4 : Vec F S1x512 .f32) (x5 : Vec F S1x512 .f32) (x6 : Vec F S1x512 .f32) (xs0 : Vec F S4096x512 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 x4 x5 x6 (k0_pay2 x0 x1 x2 x3 xs0) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S4096x128) hz, View.ld_unit_zero (S := S512x128) hz, View.ld_unit_zero (S := S1x512) hz, View.ld_unit_zero (S := S4096x512) hz, View.readCov_unit_zero (S := S4096x512) _ hz]

end BayesLinear.Pieces

end
-- ==== Proof.KernelPayload.lean ====
/-
  The body's stored values read at one entry, at the ideal values.

  A change of float format is the identity on extended reals, so the two narrowings to bf16 disappear; the matrix
  product from the zero accumulator is the plain sum of products over the 128 contracted coordinates; exp is the
  extended reals' exponential; the shape casts are between equal shapes; the bias row is repeated down the rows.
-/
import proofs.«181426_j63247688401633_1_alg».proof.Proof.Gen.KernelIdeal.Skeleton
import Idealize.ShloMosaic.Lib.Pipeline.Value
import Idealize.ShloMosaic.Lib.ValueIdx
import Idealize.ShloMosaic.PureOps.Ideal.Laws

noncomputable section

namespace BayesLinear.Payload

open Idealize.ShloMosaic Idealize.ShloMosaic.TcCoe Idealize.SL.Sem
open Cert.KernelIdeal Cert.KernelIdeal.Gen

variable {F : FTy → Type} [FloatOps F]

open Idealize.ShloMosaic.ValueIdx
open scoped BigOperators

theorem lhs_axis0 (j : S4096x512.Idx) (q : dot_S4096x128_S512x128_S4096x512_1_1_0_0_n_n.contr.Idx) :
    (dot_S4096x128_S512x128_S4096x512_1_1_0_0_n_n.lhsIdx j q 0).val = (j 0).val := by
  unfold DotDims.lhsIdx
  rw [dif_neg (show ¬(0 : Fin S4096x128.rank) ∈ dot_S4096x128_S512x128_S4096x512_1_1_0_0_n_n.lhsBatch by decide), dif_pos (show (0 : Fin S4096x128.rank) ∈ dot_S4096x128_S512x128_S4096x512_1_1_0_0_n_n.lhsNonContracting by decide)]
  rfl
theorem lhs_axis1 (j : S4096x512.Idx) (q : dot_S4096x128_S512x128_S4096x512_1_1_0_0_n_n.contr.Idx) :
    (dot_S4096x128_S512x128_S4096x512_1_1_0_0_n_n.lhsIdx j q 1).val = (q ⟨0, by decide⟩).val :=
  dot_S4096x128_S512x128_S4096x512_1_1_0_0_n_n.lhsIdx_val_of_single rfl j q
theorem rhs_axis0 (j : S4096x512.Idx) (q : dot_S4096x128_S512x128_S4096x512_1_1_0_0_n_n.contr.Idx) :
    (dot_S4096x128_S512x128_S4096x512_1_1_0_0_n_n.rhsIdx j q 0).val = (j 1).val := by
  unfold DotDims.rhsIdx
  rw [dif_neg (show ¬(0 : Fin S512x128.rank) ∈ dot_S4096x128_S512x128_S4096x512_1_1_0_0_n_n.rhsBatch by decide), dif_pos (show (0 : Fin S512x128.rank) ∈ dot_S4096x128_S512x128_S4096x512_1_1_0_0_n_n.rhsNonContracting by decide)]
  rfl
theorem rhs_axis1 (j : S4096x512.Idx) (q : dot_S4096x128_S512x128_S4096x512_1_1_0_0_n_n.contr.Idx) :
    (dot_S4096x128_S512x128_S4096x512_1_1_0_0_n_n.rhsIdx j q 1).val = (q ⟨0, by decide⟩).val :=
  dot_S4096x128_S512x128_S4096x512_1_1_0_0_n_n.rhsIdx_val_of_single rfl j q

/-- The body's matrix product contracts the second axis of both operands: from the zero accumulator, entry (r, q) is
    the sum over the 128 contracted coordinates l of A (r, l) · B (q, l). -/
theorem matmul_zero_apply (A : FVec Ideal S4096x128 .bf16) (B : FVec Ideal S512x128 .bf16) (r : Fin 4096) (q : Fin 512) :
    matmul dot_S4096x128_S512x128_S4096x512_1_1_0_0_n_n none A B (constant S4096x512 .f32 0x00000000#32) (ix2 r q)
      = ∑ l : Fin 128, A (ix2 r l) * B (ix2 q l) := by
  simp only [matmul]
  rw [Ideal.matmul_constant_zero_apply, ← Equiv.sum_comp (contrEquiv1 dot_S4096x128_S512x128_S4096x512_1_1_0_0_n_n 128 rfl rfl).symm]
  refine Finset.sum_congr rfl fun l _ => ?_
  have hk := contrEquiv1_symm_val dot_S4096x128_S512x128_S4096x512_1_1_0_0_n_n 128 rfl rfl l
  have el : dot_S4096x128_S512x128_S4096x512_1_1_0_0_n_n.lhsIdx (ix2 r q) ((contrEquiv1 dot_S4096x128_S512x128_S4096x512_1_1_0_0_n_n 128 rfl rfl).symm l) = ix2 r l := funext fun a => Fin.ext (by
    match a with
    | ⟨0, _⟩ => exact lhs_axis0 _ _
    | ⟨1, _⟩ => exact (lhs_axis1 _ _).trans hk)
  have er : dot_S4096x128_S512x128_S4096x512_1_1_0_0_n_n.rhsIdx (ix2 r q) ((contrEquiv1 dot_S4096x128_S512x128_S4096x512_1_1_0_0_n_n 128 rfl rfl).symm l) = ix2 q l := funext fun a => Fin.ext (by
    match a with
    | ⟨0, _⟩ => exact rhs_axis0 _ _
    | ⟨1, _⟩ => exact (rhs_axis1 _ _).trans hk)
  rw [el, er]

/-- The reset value is zero everywhere. -/
theorem pay1_apply (i : S4096x512.Idx) : k0_pay1 (F := Ideal) i = 0 := by
  unfold k0_pay1
  rw [shapeCast_self]
  exact Ideal.ofBits_zero_f32

/-- The accumulator's update at (r, q): what it held, plus the 128-term partial product of x's block row r against the
    sampled weight block's row q, the weight sampled entry by entry as mean + exp(log sigma) · noise. -/
theorem pay2_apply (x0 : Vec Ideal S4096x128 .f32) (x1 x2 x3 : Vec Ideal S512x128 .f32) (acc : Vec Ideal S4096x512 .f32)
    (r : Fin 4096) (q : Fin 512) :
    k0_pay2 x0 x1 x2 x3 acc (ix2 r q)
      = acc (ix2 r q) + ∑ l : Fin 128, x0 (ix2 r l) * (x1 (ix2 q l) + Ideal.exp (x2 (ix2 q l)) * x3 (ix2 q l)) := by
  unfold k0_pay2
  rw [shapeCast_self]
  refine (addf_apply _ _ _).trans ?_
  rw [matmul_zero_apply]
  rfl

/-- The output block at (r, q): the accumulator there plus the sampled bias at column q (the bias row has one row, which
    the broadcast repeats down the 4096 rows). -/
theorem pay3_apply (x4 x5 x6 : Vec Ideal S1x512 .f32) (acc : Vec Ideal S4096x512 .f32) (r : Fin 4096) (q : Fin 512) :
    k0_pay3 x4 x5 x6 acc (ix2 r q)
      = acc (ix2 r q) + (x4 (ix2 0 q) + Ideal.exp (x5 (ix2 0 q)) * x6 (ix2 0 q)) := by
  unfold k0_pay3
  simp only [shapeCast_self]
  refine (addf_apply _ _ _).trans ?_
  rw [broadcastTo_apply _ broadcasts_S1x512_S4096x512 (ix2 r q) (ix2 0 q) (fun a => by
    match a with
    | ⟨0, _⟩ => show (0 : ℕ) = if (1 : ℕ) = 1 then 0 else _; rw [if_pos rfl]
    | ⟨1, _⟩ => show q.val = if (512 : ℕ) = 1 then 0 else q.val; rw [if_neg (by decide)])]
  rfl

end BayesLinear.Payload

end
-- ==== Proof.KernelBlocks.lean ====
/-
  Which entries of the whole arrays a grid point's blocks hold.

  Point t of the 2 × 32 × 32 grid (numbered row-major, t < 2048) has row block t / 1024, output column block
  t / 32 % 32 and contraction block t % 32. The x window's block index is (t / 1024, t % 32) in blocks of [4096, 128];
  the three weight windows' is (t / 32 % 32, t % 32) in blocks of [512, 128]; the three bias windows' is
  (0, t / 32 % 32) in blocks of [1, 512]; the output's is (t / 1024, t / 32 % 32) in blocks of [4096, 512]. A block's
  entry (a, b) is the array's entry (index₀ · size₀ + a, index₁ · size₁ + b). The bias arrays reach the call reshaped
  from [16384] to [1, 16384], which keeps the row-major position: entry (0, o) is entry o.
-/
import proofs.«181426_j63247688401633_1_alg».proof.Proof.Gen.KernelIdeal.Frame
import proofs.«181426_j63247688401633_1_alg».proof.Proof.Spec
import Idealize.ShloMosaic.Lib.Pipeline.Value
import Idealize.ShloMosaic.Lib.ValueIdx
import Idealize.ShloMosaic.Lib.StableHlo.Run

noncomputable section

namespace BayesLinear.Blocks

open Idealize.ShloMosaic Idealize.ShloMosaic.TcCoe Idealize.SL.Sem
open Cert.KernelIdeal Cert.KernelIdeal.Gen BayesLinear

variable {F : FTy → Type} [FloatOps F]

open Idealize.ShloMosaic.ValueIdx
open scoped BigOperators

variable (m : (ℓ : Loc nD τ sig) → Buf (Elt F) ℓ)

/-! ## The printed index maps, decided once over the 2048 grid points -/

theorem idx0 : ∀ t : Fin cfg0.N, win0_0.index t (0 : Fin 2) = t.val / 1024 ∧ win0_0.index t (1 : Fin 2) = t.val % 32 :=
  (by decide +kernel : ∀ t : Fin grid0.N, _)
theorem idx1 : ∀ t : Fin cfg0.N, win0_1.index t (0 : Fin 2) = t.val / 32 % 32 ∧ win0_1.index t (1 : Fin 2) = t.val % 32 :=
  (by decide +kernel : ∀ t : Fin grid0.N, _)
theorem idx2 : ∀ t : Fin cfg0.N, win0_2.index t (0 : Fin 2) = t.val / 32 % 32 ∧ win0_2.index t (1 : Fin 2) = t.val % 32 :=
  (by decide +kernel : ∀ t : Fin grid0.N, _)
theorem idx3 : ∀ t : Fin cfg0.N, win0_3.index t (0 : Fin 2) = t.val / 32 % 32 ∧ win0_3.index t (1 : Fin 2) = t.val % 32 :=
  (by decide +kernel : ∀ t : Fin grid0.N, _)
theorem idx4 : ∀ t : Fin cfg0.N, win0_4.index t (0 : Fin 2) = 0 ∧ win0_4.index t (1 : Fin 2) = t.val / 32 % 32 :=
  (by decide +kernel : ∀ t : Fin grid0.N, _)
theorem idx5 : ∀ t : Fin cfg0.N, win0_5.index t (0 : Fin 2) = 0 ∧ win0_5.index t (1 : Fin 2) = t.val / 32 % 32 :=
  (by decide +kernel : ∀ t : Fin grid0.N, _)
theorem idx6 : ∀ t : Fin cfg0.N, win0_6.index t (0 : Fin 2) = 0 ∧ win0_6.index t (1 : Fin 2) = t.val / 32 % 32 :=
  (by decide +kernel : ∀ t : Fin grid0.N, _)
theorem idx7 : ∀ t : Fin cfg0.N, win0_7.index t (0 : Fin 2) = t.val / 1024 ∧ win0_7.index t (1 : Fin 2) = t.val / 32 % 32 :=
  (by decide +kernel : ∀ t : Fin grid0.N, _)

theorem t_lt (t : Fin cfg0.N) : t.val < 2048 := lt_of_lt_of_eq t.isLt (show cfg0.N = 2048 from N_0)

/-! ## The input blocks, named at their literal shapes -/

abbrev blkX (c : Dev nD) (t : Fin cfg0.N) : Vec F S4096x128 .f32 := iblk m c 0 t
abbrev blkMu (c : Dev nD) (t : Fin cfg0.N) : Vec F S512x128 .f32 := iblk m c 1 t
abbrev blkLs (c : Dev nD) (t : Fin cfg0.N) : Vec F S512x128 .f32 := iblk m c 2 t
abbrev blkEps (c : Dev nD) (t : Fin cfg0.N) : Vec F S512x128 .f32 := iblk m c 3 t
abbrev blkBMu (c : Dev nD) (t : Fin cfg0.N) : Vec F S1x512 .f32 := iblk m c 4 t
abbrev blkBLs (c : Dev nD) (t : Fin cfg0.N) : Vec F S1x512 .f32 := iblk m c 5 t
abbrev blkBEps (c : Dev nD) (t : Fin cfg0.N) : Vec F S1x512 .f32 := iblk m c 6 t

/-- x's block at point t is rows 4096·(t / 1024) … and columns 128·(t % 32) … of x. -/
theorem blkX_apply (c : Dev nD) (t : Fin cfg0.N) (r : Fin 4096) (l : Fin 128) :
    blkX m c t (ix2 r l) = m ((c : Thread nD τ).loc main_arg0) (ix2 (rowX t.val r) (colK t.val l)) := by
  obtain ⟨e0, e1⟩ := idx0 t
  have ht := t_lt t
  show V m c main_arg0 (((cfg0.win 0).blk t).view.emb (ix2 r l)) = _
  rw [V_main_arg0]
  refine congrArg _ (funext fun a => Fin.ext ?_)
  match a with
  | ⟨0, _⟩ =>
    show win0_0.index t (0 : Fin 2) * 4096 + 1 * r.val = (4096 * (t.val / 1024) + r.val) % 8192
    have := r.isLt; rw [e0]; omega
  | ⟨1, _⟩ =>
    show win0_0.index t (1 : Fin 2) * 128 + 1 * l.val = (128 * (t.val % 32) + l.val) % 4096
    have := l.isLt; rw [e1]; omega

/-- The weight mean's block at point t is rows 512·(t / 32 % 32) … and columns 128·(t % 32) … of the array. -/
theorem blkMu_apply (c : Dev nD) (t : Fin cfg0.N) (q : Fin 512) (l : Fin 128) :
    blkMu m c t (ix2 q l) = m ((c : Thread nD τ).loc main_arg1) (ix2 (rowW t.val q) (colK t.val l)) := by
  obtain ⟨e0, e1⟩ := idx1 t
  have ht := t_lt t
  show V m c main_arg1 (((cfg0.win 1).blk t).view.emb (ix2 q l)) = _
  rw [V_main_arg1]
  refine congrArg _ (funext fun a => Fin.ext ?_)
  match a with
  | ⟨0, _⟩ =>
    show win0_1.index t (0 : Fin 2) * 512 + 1 * q.val = (512 * (t.val / 32 % 32) + q.val) % 16384
    have := q.isLt; rw [e0]; omega
  | ⟨1, _⟩ =>
    show win0_1.index t (1 : Fin 2) * 128 + 1 * l.val = (128 * (t.val % 32) + l.val) % 4096
    have := l.isLt; rw [e1]; omega

/-- The weight log sigma's block, likewise. -/
theorem blkLs_apply (c : Dev nD) (t : Fin cfg0.N) (q : Fin 512) (l : Fin 128) :
    blkLs m c t (ix2 q l) = m ((c : Thread nD τ).loc main_arg2) (ix2 (rowW t.val q) (colK t.val l)) := by
  obtain ⟨e0, e1⟩ := idx2 t
  have ht := t_lt t
  show V m c main_arg2 (((cfg0.win 2).blk t).view.emb (ix2 q l)) = _
  rw [V_main_arg2]
  refine congrArg _ (funext fun a => Fin.ext ?_)
  match a with
  | ⟨0, _⟩ =>
    show win0_2.index t (0 : Fin 2) * 512 + 1 * q.val = (512 * (t.val / 32 % 32) + q.val) % 16384
    have := q.isLt; rw [e0]; omega
  | ⟨1, _⟩ =>
    show win0_2.index t (1 : Fin 2) * 128 + 1 * l.val = (128 * (t.val % 32) + l.val) % 4096
    have := l.isLt; rw [e1]; omega

/-- The weight noise's block, likewise (the fourth operand of the call is the sixth argument). -/
theorem blkEps_apply (c : Dev nD) (t : Fin cfg0.N) (q : Fin 512) (l : Fin 128) :
    blkEps m c t (ix2 q l) = m ((c : Thread nD τ).loc main_arg5) (ix2 (rowW t.val q) (colK t.val l)) := by
  obtain ⟨e0, e1⟩ := idx3 t
  have ht := t_lt t
  show V m c main_arg5 (((cfg0.win 3).blk t).view.emb (ix2 q l)) = _
  rw [V_main_arg5]
  refine congrArg _ (funext fun a => Fin.ext ?_)
  match a with
  | ⟨0, _⟩ =>
    show win0_3.index t (0 : Fin 2) * 512 + 1 * q.val = (512 * (t.val / 32 % 32) + q.val) % 16384
    have := q.isLt; rw [e0]; omega
  | ⟨1, _⟩ =>
    show win0_3.index t (1 : Fin 2) * 128 + 1 * l.val = (128 * (t.val % 32) + l.val) % 4096
    have := l.isLt; rw [e1]; omega

/-! ## The bias blocks: the host reshapes each bias array to one row of 16384 before the call -/

/-- The bias mean as the call finds it: the length-16384 array laid out as one row. -/
theorem V_blkBMu (c : Dev nD) :
    (V m c main_v0 : S1x16384.Idx → Elt F .f32) = shapeCast S1x16384 (m ((c : Thread nD τ).loc main_arg3)) shapeCasts_S16384_S1x16384 := by
  dsimp only [V, hostOps0]; after_results; rfl

theorem blkBMu_apply (c : Dev nD) (t : Fin cfg0.N) (q : Fin 512) :
    blkBMu m c t (ix2 0 q) = m ((c : Thread nD τ).loc main_arg3) (ix1 (rowW t.val q)) := by
  obtain ⟨e0, e1⟩ := idx4 t
  have ht := t_lt t
  show V m c main_v0 (((cfg0.win 4).blk t).view.emb (ix2 0 q)) = _
  rw [V_blkBMu]
  refine shapeCast_apply _ _ _ _ ?_
  show ((⟨1, ![16384]⟩ : Shape).rowMajor (ix1 (rowW t.val q))).val = ((⟨2, ![1, 16384]⟩ : Shape).rowMajor (((cfg0.win 4).blk t).view.emb (ix2 0 q))).val
  rw [Shape.rowMajor_val_one, Shape.rowMajor_val_two]
  show (512 * (t.val / 32 % 32) + q.val) % 16384 = (win0_4.index t (0 : Fin 2) * 1 + 1 * 0) * 16384 + (win0_4.index t (1 : Fin 2) * 512 + 1 * q.val)
  have := q.isLt; rw [e0, e1]; omega

/-- The bias log sigma, likewise. -/
theorem V_blkBLs (c : Dev nD) :
    (V m c main_v1 : S1x16384.Idx → Elt F .f32) = shapeCast S1x16384 (m ((c : Thread nD τ).loc main_arg4)) shapeCasts_S16384_S1x16384 := by
  dsimp only [V, hostOps0]; after_results; rfl

theorem blkBLs_apply (c : Dev nD) (t : Fin cfg0.N) (q : Fin 512) :
    blkBLs m c t (ix2 0 q) = m ((c : Thread nD τ).loc main_arg4) (ix1 (rowW t.val q)) := by
  obtain ⟨e0, e1⟩ := idx5 t
  have ht := t_lt t
  show V m c main_v1 (((cfg0.win 5).blk t).view.emb (ix2 0 q)) = _
  rw [V_blkBLs]
  refine shapeCast_apply _ _ _ _ ?_
  show ((⟨1, ![16384]⟩ : Shape).rowMajor (ix1 (rowW t.val q))).val = ((⟨2, ![1, 16384]⟩ : Shape).rowMajor (((cfg0.win 5).blk t).view.emb (ix2 0 q))).val
  rw [Shape.rowMajor_val_one, Shape.rowMajor_val_two]
  show (512 * (t.val / 32 % 32) + q.val) % 16384 = (win0_5.index t (0 : Fin 2) * 1 + 1 * 0) * 16384 + (win0_5.index t (1 : Fin 2) * 512 + 1 * q.val)
  have := q.isLt; rw [e0, e1]; omega

/-- The bias noise, likewise. -/
theorem V_blkBEps (c : Dev nD) :
    (V m c main_v2 : S1x16384.Idx → Elt F .f32) = shapeCast S1x16384 (m ((c : Thread nD τ).loc main_arg6)) shapeCasts_S16384_S1x16384 := by
  dsimp only [V, hostOps0]; after_results; rfl

theorem blkBEps_apply (c : Dev nD) (t : Fin cfg0.N) (q : Fin 512) :
    blkBEps m c t (ix2 0 q) = m ((c : Thread nD τ).loc main_arg6) (ix1 (rowW t.val q)) := by
  obtain ⟨e0, e1⟩ := idx6 t
  have ht := t_lt t
  show V m c main_v2 (((cfg0.win 6).blk t).view.emb (ix2 0 q)) = _
  rw [V_blkBEps]
  refine shapeCast_apply _ _ _ _ ?_
  show ((⟨1, ![16384]⟩ : Shape).rowMajor (ix1 (rowW t.val q))).val = ((⟨2, ![1, 16384]⟩ : Shape).rowMajor (((cfg0.win 6).blk t).view.emb (ix2 0 q))).val
  rw [Shape.rowMajor_val_one, Shape.rowMajor_val_two]
  show (512 * (t.val / 32 % 32) + q.val) % 16384 = (win0_6.index t (0 : Fin 2) * 1 + 1 * 0) * 16384 + (win0_6.index t (1 : Fin 2) * 512 + 1 * q.val)
  have := q.isLt; rw [e0, e1]; omega

end BayesLinear.Blocks

end
-- ==== Proof.KernelFold.lean ====
/-
  The accumulator over a run of 32 grid points is the whole contraction.

  The generated value leg states the scratch after any point as the fold of its run: the reset value at the run's first
  point, one step at each later point. Here each step is read at an entry as "what was there, plus this point's
  addend", the reset as "zero plus the first point's addend", so after j steps the entry holds zero plus the sum of the
  addends of the run's first j + 1 points. At the run's last point that is all 32 addends, whose 32 × 128 terms are
  the 4096 terms of the row-against-row sum. Only associativity and commutativity of + on the extended reals are used.
-/
import proofs.«181426_j63247688401633_1_alg».proof.Proof.Gen.KernelIdeal.Value
import proofs.«181426_j63247688401633_1_alg».proof.Proof.Spec
import proofs.«181426_j63247688401633_1_alg».proof.Proof.KernelPieces
import proofs.«181426_j63247688401633_1_alg».proof.Proof.KernelPayload
import proofs.«181426_j63247688401633_1_alg».proof.Proof.KernelBlocks
import Idealize.ShloMosaic.Lib.Pipeline.Value
import Idealize.ShloMosaic.Lib.ValueIdx

noncomputable section

namespace BayesLinear.Fold

open Idealize.ShloMosaic Idealize.ShloMosaic.TcCoe Idealize.SL.Sem
open Cert.KernelIdeal Cert.KernelIdeal.Gen BayesLinear

open Idealize.ShloMosaic.ValueIdx
open BayesLinear.Pieces BayesLinear.Payload BayesLinear.Blocks Cert.KernelIdeal.Value
open scoped BigOperators

variable (m : (ℓ : Loc nD τ sig) → Buf (Elt Ideal) ℓ)

/-- x as the kernel's memory holds it at launch. -/
abbrev X (c : Dev nD) : FVec Ideal SX .f32 := m ((c : Thread nD τ).loc main_arg0)
/-- The sampled weight, from the three weight arrays as the kernel's memory holds them at launch. -/
abbrev W (c : Dev nD) : FVec Ideal SW .f32 :=
  weight (m ((c : Thread nD τ).loc main_arg1)) (m ((c : Thread nD τ).loc main_arg2)) (m ((c : Thread nD τ).loc main_arg5))

/-- ONE STEP. The accumulator's update at point t, read at a block-local entry: what it held there plus the point's
    addend — 128 products of entries of the whole x and the whole sampled weight. -/
theorem step_apply (c : Dev nD) (t : Fin cfg0.N) (acc : Vec Ideal S4096x512 .f32) (i : S4096x512.Idx) :
    k0_pay2 (blkX m c t) (blkMu m c t) (blkLs m c t) (blkEps m c t) acc i = acc i + addend (X m c) (W m c) t.val i := by
  obtain ⟨r, q, rfl⟩ : ∃ (r : Fin 4096) (q : Fin 512), i = ix2 r q := ⟨i 0, i 1, eq_ix2 i⟩
  rw [pay2_apply]
  unfold addend
  refine congrArg (acc (ix2 r q) + ·) (Finset.sum_congr rfl fun l _ => ?_)
  rw [blkX_apply, blkMu_apply, blkLs_apply, blkEps_apply]
  rfl

/-- At the first point of a run the scratch is left at the update of the zero block. -/
theorem scAt_reset (c : Dev nD) (n : ℕ) (hb : n < cfg0.N) (h0 : n % 32 = 0) (acc : Vec Ideal S4096x512 .f32) :
    scAt0_0 m c n hb acc
      = k0_pay2 (blkX m c (⟨n, hb⟩ : Fin cfg0.N)) (blkMu m c (⟨n, hb⟩ : Fin cfg0.N)) (blkLs m c (⟨n, hb⟩ : Fin cfg0.N)) (blkEps m c (⟨n, hb⟩ : Fin cfg0.N)) (k0_pay1 (F := Ideal)) := by
  have h1 : ¬n % 32 = 31 := by omega
  unfold scAt0_0
  rw [dif_pos h0, dif_neg h1]
  exact scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At every later point of a run the scratch is left at the update of what the point before left. -/
theorem scAt_step (c : Dev nD) (n : ℕ) (hb : n < cfg0.N) (h0 : ¬n % 32 = 0) (acc : Vec Ideal S4096x512 .f32) :
    scAt0_0 m c n hb acc
      = k0_pay2 (blkX m c (⟨n, hb⟩ : Fin cfg0.N)) (blkMu m c (⟨n, hb⟩ : Fin cfg0.N)) (blkLs m c (⟨n, hb⟩ : Fin cfg0.N)) (blkEps m c (⟨n, hb⟩ : Fin cfg0.N)) acc := by
  unfold scAt0_0
  rw [dif_neg h0]
  by_cases h1 : n % 32 = 31
  · rw [dif_pos h1]
    exact scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- THE ACCUMULATOR AT THE END OF A RUN. After the last point t of a run of 32 (t % 32 = 31) the scratch holds, at
    block-local (r, q), the whole contraction: row (row block of t, r) of x against row (column block of t, q) of the
    sampled weight. The fold over the run's points starts from zero and adds one addend per point; the 32 addends are
    the 32 consecutive blocks of 128 terms of that sum. -/
theorem scratch_at_last (c : Dev nD) (t : Fin cfg0.N) (h31 : t.val % 32 = 31) (i : S4096x512.Idx) :
    (outsAt0 m c t.val t.isLt).2 i
      = ∑ k : Fin 4096, X m c (ix2 (rowX t.val (i 0)) k) * W m c (ix2 (rowW t.val (i 1)) k) := by
  have ht := t_lt t
  have hN : cfg0.N = 2048 := N_0
  have hb0 : 32 * (t.val / 32) % 32 = 0 := by omega
  have key := Pipeline.accAt_add_apply (ι := S4096x512.Idx) (β := EReal)
    (fun n h => scAt0_0 m c n h (VS0_0.read (Elt Ideal) VS0_0.junk)) (scAt0_0 m c) (fun _ => 0)
    (addend (X m c) (W m c)) (32 * (t.val / 32)) 31
    (fun h i => by
      show scAt0_0 m c (32 * (t.val / 32)) h (VS0_0.read (Elt Ideal) VS0_0.junk) i = 0 + addend (X m c) (W m c) (32 * (t.val / 32)) i
      rw [scAt_reset m c _ h hb0, step_apply m c ⟨32 * (t.val / 32), h⟩ (k0_pay1 (F := Ideal)) i, pay1_apply])
    (fun n h acc i h1 h2 => by
      have hn0 : ¬n % 32 = 0 := by omega
      show scAt0_0 m c n h acc i = acc i + addend (X m c) (W m c) n i
      rw [scAt_step m c n h hn0 acc]
      exact step_apply m c ⟨n, h⟩ acc i)
    (t.val % 32) (by omega) (by omega) i
  rw [soutsAt0_0_eq m c t, key, zero_add, show t.val % 32 + 1 = 32 by omega, sum_addends _ _ _ hb0]
  have e1 : rowX (32 * (t.val / 32)) (i 0) = rowX t.val (i 0) := Fin.ext (by
    show (4096 * (32 * (t.val / 32) / 1024) + (i 0).val) % 8192 = (4096 * (t.val / 1024) + (i 0).val) % 8192
    have : 32 * (t.val / 32) / 1024 = t.val / 1024 := by omega
    rw [this])
  have e2 : rowW (32 * (t.val / 32)) (i 1) = rowW t.val (i 1) := Fin.ext (by
    show (512 * (32 * (t.val / 32) / 32 % 32) + (i 1).val) % 16384 = (512 * (t.val / 32 % 32) + (i 1).val) % 16384
    have : 32 * (t.val / 32) / 32 = t.val / 32 := by omega
    rw [this])
  rw [e1, e2]

/-- At the last point of a run the output block is stored: the accumulator as that point leaves it, plus the bias. -/
theorem out_at_last (c : Dev nD) (t : Fin cfg0.N) (h31 : t.val % 32 = 31) :
    (outsAt0 m c t.val t.isLt).1
      = k0_pay3 (blkBMu m c t) (blkBLs m c t) (blkBEps m c t) ((outsAt0 m c t.val t.isLt).2) := by
  have h0 : ¬t.val % 32 = 0 := by omega
  rw [outsAt0_C m c t h0 h31]
  dsimp only
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h31) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h31) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]

end BayesLinear.Fold

end
-- ==== Proof.KernelValue.lean ====
/-
  The kernel's output array after its run is the layer's output.

  The output window is written back once per run of 32 grid points, at the run's last point, and those 64 blocks of
  [4096, 512] tile the [8192, 16384] array. What each such point writes is the finished accumulator plus the bias row,
  which at the block's place in the array is the specification of the launch contents of the seven arguments. Every
  entry of the array is covered by exactly one of these blocks, so the array ends holding the specification.
-/
import proofs.«181426_j63247688401633_1_alg».proof.Proof.Gen.KernelIdeal.Value
import proofs.«181426_j63247688401633_1_alg».proof.Proof.Spec
import proofs.«181426_j63247688401633_1_alg».proof.Proof.KernelPieces
import proofs.«181426_j63247688401633_1_alg».proof.Proof.KernelPayload
import proofs.«181426_j63247688401633_1_alg».proof.Proof.KernelBlocks
import Idealize.ShloMosaic.Lib.Pipeline.Value
import Idealize.ShloMosaic.Lib.ValueIdx
import proofs.«181426_j63247688401633_1_alg».proof.Proof.KernelFold

noncomputable section

namespace BayesLinear.Kernel

open Idealize.ShloMosaic Idealize.ShloMosaic.TcCoe Idealize.SL.Sem
open Cert.KernelIdeal Cert.KernelIdeal.Gen BayesLinear

open Idealize.ShloMosaic.ValueIdx
open BayesLinear.Payload BayesLinear.Blocks BayesLinear.Fold Cert.KernelIdeal.Value
open Idealize.ShloMosaic.Pipeline (Dat)
open scoped BigOperators

variable (m : (ℓ : Loc nD τ sig) → Buf (Elt Ideal) ℓ) (ρ : Dev nD → PrngReg)

/-- The layer's output as a function of the seven arrays the kernel's memory holds at launch. -/
abbrev result (c : Dev nD) : Buf (Elt Ideal) ((c : Thread nD τ).loc main_v3) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT A FLUSHING POINT WRITES BACK. The output window is written back exactly at the last point of each run of 32;
    there its block is the finished accumulator plus the bias, which entry by entry is the specification at the block's
    place in the array: row block t / 1024, column block t / 32 % 32. -/
theorem flushed_eq (c : Dev nD) (t : Fin cfg0.N) (hf : (cfg0.win 7).flush t = true) :
    (dats m 0 c).flushed 7 t = ((cfg0.win 7).blk t).view.read (Elt Ideal) (result m c) := by
  have h31 : t.val % 32 = 31 := (flush0_7 t).mp hf
  have ht := t_lt t
  obtain ⟨e0, e1⟩ := idx7 t
  rw [flushed7, out_at_last m c t h31]
  funext j
  obtain ⟨r, q, rfl⟩ : ∃ (r : Fin 4096) (q : Fin 512), j = ix2 r q := ⟨j 0, j 1, eq_ix2 j⟩
  show k0_pay3 (blkBMu m c t) (blkBLs m c t) (blkBEps m c t) ((outsAt0 m c t.val t.isLt).2) (ix2 r q)
    = result m c (((cfg0.win 7).blk t).view.emb (ix2 r q))
  have eemb : ((cfg0.win 7).blk t).view.emb (ix2 r q) = ix2 (rowX t.val r) (rowW t.val q) := funext fun a => Fin.ext (by
    match a with
    | ⟨0, _⟩ =>
      show win0_7.index t (0 : Fin 2) * 4096 + 1 * r.val = (4096 * (t.val / 1024) + r.val) % 8192
      have := r.isLt; rw [e0]; omega
    | ⟨1, _⟩ =>
      show win0_7.index t (1 : Fin 2) * 512 + 1 * q.val = (512 * (t.val / 32 % 32) + q.val) % 16384
      have := q.isLt; rw [e1]; omega)
  rw [eemb, pay3_apply, scratch_at_last m c t h31, blkBMu_apply, blkBLs_apply, blkBEps_apply]
  rfl

/-- Every entry of the output lies in the block of exactly one run's last point: entry (n, o) in that of row block
    n / 4096 and column block o / 512. -/
theorem cover (i : S8192x16384.Idx) : ∃ t : Fin cfg0.N, (cfg0.win 7).flush t = true ∧ i ∈ ((cfg0.win 7).blk t).view.set := by
  have h0 : (i 0).val < 8192 := idx2_lt0 i
  have h1 : (i 1).val < 16384 := idx2_lt1 i
  have hN : cfg0.N = 2048 := N_0
  have htv : 1024 * ((i 0).val / 4096) + 32 * ((i 1).val / 512) + 31 < cfg0.N := by rw [hN]; omega
  refine ⟨⟨1024 * ((i 0).val / 4096) + 32 * ((i 1).val / 512) + 31, htv⟩, (flush0_7 _).mpr (by
    show (1024 * ((i 0).val / 4096) + 32 * ((i 1).val / 512) + 31) % 32 = 31
    omega), ?_⟩
  obtain ⟨e0, e1⟩ := idx7 ⟨1024 * ((i 0).val / 4096) + 32 * ((i 1).val / 512) + 31, htv⟩
  show i ∈ ((View.whole main_v3).slice (win0_7.rect ⟨1024 * ((i 0).val / 4096) + 32 * ((i 1).val / 512) + 31, htv⟩)).set
  rw [View.set_slice_whole, Rect.mem_set_unit]
  intro a
  match a with
  | ⟨0, _⟩ =>
    show win0_7.index ⟨1024 * ((i 0).val / 4096) + 32 * ((i 1).val / 512) + 31, htv⟩ (0 : Fin 2) * 4096 ≤ (i 0).val
      ∧ (i 0).val < win0_7.index ⟨1024 * ((i 0).val / 4096) + 32 * ((i 1).val / 512) + 31, htv⟩ (0 : Fin 2) * 4096 + 4096
    rw [e0]
    show (1024 * ((i 0).val / 4096) + 32 * ((i 1).val / 512) + 31) / 1024 * 4096 ≤ (i 0).val
      ∧ (i 0).val < (1024 * ((i 0).val / 4096) + 32 * ((i 1).val / 512) + 31) / 1024 * 4096 + 4096
    omega
  | ⟨1, _⟩ =>
    show win0_7.index ⟨1024 * ((i 0).val / 4096) + 32 * ((i 1).val / 512) + 31, htv⟩ (1 : Fin 2) * 512 ≤ (i 1).val
      ∧ (i 1).val < win0_7.index ⟨1024 * ((i 0).val / 4096) + 32 * ((i 1).val / 512) + 31, htv⟩ (1 : Fin 2) * 512 + 512
    rw [e1]
    show (1024 * ((i 0).val / 4096) + 32 * ((i 1).val / 512) + 31) / 32 % 32 * 512 ≤ (i 1).val
      ∧ (i 1).val < (1024 * ((i 0).val / 4096) + 32 * ((i 1).val / 512) + 31) / 32 % 32 * 512 + 512
    omega

/-- So after the run the output array holds the specification of the launch contents of the arguments. -/
theorem final (c : Dev nD) : (dats m 0 c).arrAt 7 cfg0.N = result m c :=
  (dats m 0 c).arrAt_eq_of_cover 7 (result m c) (flushed_eq m c) cover

/-- The kernel's run, read: it terminates with the output at the specification and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end BayesLinear.Kernel

end
-- ==== Proof.lean ====
/-
  A Bayesian linear layer with a reparameterized weight sample, as a tiled kernel and as plain array code.

  Both programs compute, for x [8192, 4096], weight mean, log sigma and noise [16384, 4096] and bias mean, log sigma and
  noise [16384],

      out[n, o] = (Σ_{i < 4096} x[n, i] · (μ[o, i] + exp(λ[o, i]) · ε[o, i])) + (μ_b[o] + exp(λ_b[o]) · ε_b[o]).

  The reference forms the sampled weight and bias whole, contracts x against the weight in one product and adds the
  broadcast bias. The kernel walks a 2 × 32 × 32 grid: for each [4096, 512] output block it zeroes an accumulator,
  adds for each of the 32 contraction blocks the product of x's [4096, 128] block with the [512, 128] block of the
  weight sampled on the fly (both narrowed to bf16 first, which at the ideal values changes nothing), and at the last
  contraction block adds the sampled bias and stores the block. At the ideal values the two agree because a sum of
  4096 terms is the sum of its 32 consecutive blocks of 128 terms, started from zero: addition of extended reals is
  associative and commutative, and no other law (and no finiteness of the inputs) is needed.

  The three frames: the kernel's two are its generated frame certificates; the reference has no kernel launch, and its
  frame is its run with the result forgotten. The idealization rewrote nothing, so there is nothing to preserve.
-/
import proofs.«181426_j63247688401633_1_alg».proof.Defs
import proofs.«181426_j63247688401633_1_alg».proof.Proof.Gen.Kernel
import proofs.«181426_j63247688401633_1_alg».proof.Proof.Gen.Kernel.Skeleton
import proofs.«181426_j63247688401633_1_alg».proof.Proof.Gen.Kernel.Launch
import proofs.«181426_j63247688401633_1_alg».proof.Proof.Gen.Kernel.Points
import proofs.«181426_j63247688401633_1_alg».proof.Proof.Gen.Kernel.Frame
import proofs.«181426_j63247688401633_1_alg».proof.Proof.Gen.KernelIdeal
import proofs.«181426_j63247688401633_1_alg».proof.Proof.Gen.KernelIdeal.Skeleton
import proofs.«181426_j63247688401633_1_alg».proof.Proof.Gen.KernelIdeal.Launch
import proofs.«181426_j63247688401633_1_alg».proof.Proof.Gen.KernelIdeal.Points
import proofs.«181426_j63247688401633_1_alg».proof.Proof.Gen.KernelIdeal.Frame
import proofs.«181426_j63247688401633_1_alg».proof.Proof.Gen.ReferenceIdeal
import proofs.«181426_j63247688401633_1_alg».proof.Proof.Gen.Pre_finite_inputs
import proofs.«181426_j63247688401633_1_alg».proof.Proof.Gen.KernelIdeal.Value
import proofs.«181426_j63247688401633_1_alg».proof.Proof.Gen.ReferenceIdeal.Run
import proofs.«181426_j63247688401633_1_alg».proof.Proof.Gen.ReferenceIdeal.Read
import proofs.«181426_j63247688401633_1_alg».proof.Proof.RefValue
import proofs.«181426_j63247688401633_1_alg».proof.Proof.KernelValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is ten host operations in a row: it runs, and its arguments end unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no rewrite to account for. -/
theorem preserves : Cert.preserves_Kernel_KernelIdeal := trivial

/-- From memories that agree on the seven arguments, the kernel's output array and the reference's result both end at
    the layer's output function of those arguments. -/
theorem algebraic : Cert.algebraic_KernelIdeal_ReferenceIdeal := by
  intro m ρ m' ρ' _ hagree
  refine ⟨fun c => BayesLinear.Kernel.result m c, BayesLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, BayesLinear.Ref.val_eq_G, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
